-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2x2097152 : Shape := ⟨3, ![16, 2, 2097152]⟩
abbrev S_ : Shape := ⟨0, ![]⟩

class Facts : Prop where
  bcast_S_S16x2x2097152 : S_.BroadcastsInDim S16x2x2097152 (![] : Fin 0 → Fin S16x2x2097152.rank)
  reducesTo_S16x2x2097152_S_d0_1_2 : S16x2x2097152.ReducesTo [0, 1, 2] S_
  h_S_ : 0 < S_.numel

variable [Facts]

def fn {F : FTy → Type} [FloatOps F] (main_arg0 : FVec F S16x2x2097152 .f32) : IVec S_ 1 :=
  let main_v0 : FVec F S16x2x2097152 .f32 := Host.absf main_arg0
  let main_cst : FVec F S_ .f32 := constant S_ .f32 0x7F800000#32
  let main_v1 : FVec F S16x2x2097152 .f32 := broadcastInDim S16x2x2097152 ![] bcast_S_S16x2x2097152 main_cst
  let main_v2 : IVec S16x2x2097152 1 := cmpf .olt main_v0 main_v1
  let main_c : IVec S_ 1 := constantI S_ 1 1#1
  let main_v3 : IVec S_ 1 := (fun x v => Host.reduce IntOp.andi x v reducesTo_S16x2x2097152_S_d0_1_2 h_S_) main_v2 main_c
  main_v3
-- ==== Kernel.lean ====
abbrev S16x2x2097152 : Shape := ⟨3, ![16, 2, 2097152]⟩
abbrev S32x2097152 : Shape := ⟨2, ![32, 2097152]⟩
abbrev S8x262144 : Shape := ⟨2, ![8, 262144]⟩

abbrev nBuf : Space → Nat
  | .hbm => 4
  | .vmem => 4
  | .smem => 0
  | _ => 0

abbrev bufTy : (tb : Table) → Fin (tcTables nBuf tb) → BufTy
  | .hbm, ⟨0, _⟩ => ⟨S16x2x2097152, .f32⟩
  | .hbm, ⟨1, _⟩ => ⟨S32x2097152, .f32⟩
  | .hbm, ⟨2, _⟩ => ⟨S32x2097152, .f32⟩
  | .hbm, ⟨3, _⟩ => ⟨S16x2x2097152, .f32⟩
  | .local _ .vmem, ⟨0, _⟩ => ⟨S8x262144, .f32⟩
  | .local _ .vmem, ⟨1, _⟩ => ⟨S8x262144, .f32⟩
  | .local _ .vmem, ⟨2, _⟩ => ⟨S8x262144, .f32⟩
  | .local _ .vmem, ⟨3, _⟩ => ⟨S8x262144, .f32⟩
  | _, _ => ⟨S16x2x2097152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S8x262144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x262144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  shapeCasts_S16x2x2097152_S32x2097152 : S16x2x2097152.ShapeCasts S32x2097152
  inb_S8x262144_S8x262144_0_0 : ∀ a, (![0, 0] : Fin 2 → Nat) a + S8x262144.size a ≤ S8x262144.size a
  h_S8x262144 : 0 < S8x262144.numel
  shapeCasts_S8x262144_S8x262144 : S8x262144.ShapeCasts S8x262144
  shapeCasts_S32x2097152_S16x2x2097152 : S32x2097152.ShapeCasts S16x2x2097152
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x262144.size a ≤ S32x2097152.size a
  hwx0_0 : ∀ i : grid0.Coords, EltTy.bits .f32 = 32 ∨ (Rect.block (s := S32x2097152) S8x262144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x262144.size a ≤ S32x2097152.size a
  hwx0_1 : ∀ i : grid0.Coords, EltTy.bits .f32 = 32 ∨ (Rect.block (s := S32x2097152) S8x262144.size (cc0_transform_1 i) (hinb0_1 i)).WholeWords (EltTy.packing .f32)

variable [Facts₀]

abbrev win0_0 : Pipeline.Window sig grid0 :=
  Pipeline.Window.ofSpec (Memref.whole main_v0) S8x262144.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x262144.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x2x2097152 : Shape := ⟨3, ![16, 2, 2097152]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S16x2x2097152, .f32⟩
  | .hbm, ⟨1, _⟩ => ⟨S_, .f32⟩
  | .hbm, ⟨2, _⟩ => ⟨S16x2x2097152, .f32⟩
  | .hbm, ⟨3, _⟩ => ⟨S16x2x2097152, .f32⟩
  | .hbm, ⟨4, _⟩ => ⟨S_, .f32⟩
  | .hbm, ⟨5, _⟩ => ⟨S16x2x2097152, .f32⟩
  | .hbm, ⟨6, _⟩ => ⟨S16x2x2097152, .f32⟩
  | _, _ => ⟨S16x2x2097152, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_cst_0 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S_S16x2x2097152 : S_.BroadcastsInDim S16x2x2097152 (![] : Fin 0 → Fin S16x2x2097152.rank)

variable [Facts₀]

class Facts : Prop extends Facts₀ where

variable [Facts]
-- ==== Proof.ClipSpec.lean ====
/-
  The mathematics of this certificate, free of any program.

  Both programs clip every entry of a float array to the interval [-1/2, 1/2]: an entry `x` becomes
  `min (max x (-1/2)) (1/2)`, the two bounds the float words of -0.5 and 0.5 (exact dyadics, the same
  words on both sides, so they are never evaluated). The kernel does it on a [32, 2097152] view of the
  [16, 2, 2097152] array, tile by tile; the reference on the array as it is. The one law needed is that an
  ENTRYWISE map commutes with a change of shape (which only re-indexes the entries in row-major order), so
  changing the shape, clipping every entry, and changing the shape back is clipping every entry.
-/
import Idealize.ShloMosaic.PureOps
import Idealize.ShloMosaic.Lib.Pipeline.Value

noncomputable section

namespace Cert.Clip

open Idealize.ShloMosaic

variable {F : FTy → Type} [FloatOps F]

/-- One entry clipped: `min (max x (-1/2)) (1/2)`. -/
def clip (x : F .f32) : F .f32 :=
  FloatOps.minimumf (FloatOps.maximumf x (FloatOps.ofBits .f32 0xBF000000#32)) (FloatOps.ofBits .f32 0x3F000000#32)

/-- Every entry of an array clipped, whatever the array's shape. -/
def clipAll {s : Shape} (a : s.Idx → F .f32) : s.Idx → F .f32 := fun i => clip (a i)

theorem clipAll_apply {s : Shape} (a : s.Idx → F .f32) (i : s.Idx) : clipAll a i = clip (a i) := rfl

/-- Clipping every entry commutes with a change of shape: the change of shape reads the same entries at
    other indices, and the clip looks at one entry at a time. -/
theorem shapeCast_clipAll {s t : Shape} (a : s.Idx → F .f32) (h : s.ShapeCasts t) :
    shapeCast t (clipAll a) h = clipAll (shapeCast t a h) := rfl

/-- Change the shape, clip every entry, change the shape back: every entry of the original array clipped. -/
theorem shapeCast_clipAll_shapeCast {s t : Shape} (a : s.Idx → F .f32) (h : s.ShapeCasts t) (h' : t.ShapeCasts s) :
    shapeCast s (clipAll (shapeCast t a h)) h' = clipAll a := by
  rw [shapeCast_clipAll, shapeCast_shapeCast]

end Cert.Clip

end
-- ==== Proof.RefClip.lean ====
/-
  The reference, read: its result array is every entry of its argument clipped to [-1/2, 1/2].

  The reference broadcasts the scalar -1/2 to the array's shape, takes the entrywise maximum with the
  argument, broadcasts 1/2, and takes the entrywise minimum. A broadcast scalar holds the scalar at every
  index, so at each index this is `min (max x (-1/2)) (1/2)` of the argument's entry there.
-/
import proofs.«404567_j54365696033603_3_alg».proof.Proof.Gen.ReferenceIdeal.Run
import proofs.«404567_j54365696033603_3_alg».proof.Proof.ClipSpec

noncomputable section

namespace Cert.ReferenceIdeal.RefClip

open Idealize.ShloMosaic Idealize.ShloMosaic.TcCoe Idealize.SL.Sem
open Cert.ReferenceIdeal Cert.Clip

variable {F : FTy → Type} [FloatOps F]

/-- The reference's composed term is the entrywise clip: a scalar broadcast to every index is that scalar
    at each index, and the entrywise maximum and minimum act index by index. -/
theorem term_eq [Facts] (x : FVec F S16x2x2097152 .f32) :
    minimumf (maximumf x (broadcastInDim S16x2x2097152 ![] Facts₀.bcast_S_S16x2x2097152 (constant S_ .f32 0xBF000000#32)))
      (broadcastInDim S16x2x2097152 ![] Facts₀.bcast_S_S16x2x2097152 (constant S_ .f32 0x3F000000#32))
    = clipAll x := rfl

end Cert.ReferenceIdeal.RefClip

end
-- ==== Proof.TileClip.lean ====
/-
  The pallas_call, read as a value: after the run, the [32, 2097152] output array holds every entry of the
  [32, 2097152] input array clipped to [-1/2, 1/2].

  The grid is 4 × 8; point (p, q) reads the 8 × 262144 tile whose corner is (8p, 262144q) of the input and
  writes the tile with the same corner of the output. The body loads its input tile whole, clips every entry and
  stores the result whole. Because the clip is entrywise and the two tiles sit at the same place, what a point
  writes back is the same tile of ONE whole-array function, "every entry clipped"; and because the 32 tiles
  cover the array (entry (r, s) lies in the tile of point (r / 8, s / 262144)), the output array is that function.
-/
import proofs.«404567_j54365696033603_3_alg».proof.Proof.Gen.KernelIdeal.Frame
import proofs.«404567_j54365696033603_3_alg».proof.Proof.ClipSpec
import Idealize.ShloMosaic.Lib.Pipeline.Value

set_option maxRecDepth 16384

noncomputable section

namespace Cert.KernelIdeal.Tiles

open Cert.KernelIdeal Cert.KernelIdeal.Gen Cert.Clip
open Idealize.ShloMosaic Idealize.ShloMosaic.TcCoe Idealize.SL.Sem
open Idealize.ShloMosaic.Pipeline (Dat Cfg Window)

variable {F : FTy → Type} [FloatOps F]
variable (m : (ℓ : Loc nD τ sig) → Buf (Elt F) ℓ)

/-- The body's accesses all start at the tile's corner. -/
theorem corner : (![0, 0] : Fin 2 → Nat) = fun _ => 0 := funext fun a => by fin_cases a <;> rfl

/-- What the body stores is its loaded tile with every entry clipped: the change of shape in the body is to the
    same shape, and the two bounds are broadcast scalars. -/
theorem stored_eq (x0 : Vec F S8x262144 .f32) : k0_pay1 x0 = clipAll (s := S8x262144) x0 := by
  show minimumf (maximumf (shapeCast S8x262144 x0 Facts₀.shapeCasts_S8x262144_S8x262144)
      (broadcast S8x262144 (Scalar.ofBits .f32 0xBF000000#32))) (broadcast S8x262144 (Scalar.ofBits .f32 0x3F000000#32)) = _
  rw [shapeCast_self]
  rfl

/-- At every grid point the input tile and the output tile have the same tile coordinates, and those stay
    inside the 4 × 8 arrangement of tiles. -/
theorem same_tile : ∀ t : Fin cfg0.N, win0_0.index t (0 : Fin 2) = win0_1.index t (0 : Fin 2)
    ∧ win0_0.index t (1 : Fin 2) = win0_1.index t (1 : Fin 2)
    ∧ win0_1.index t (0 : Fin 2) ≤ 3 ∧ win0_1.index t (1 : Fin 2) ≤ 7 :=
  (by decide +kernel : ∀ t : Fin grid0.N, _)

/-- Every one of the 4 × 8 tiles is the output tile of some grid point. -/
theorem tile_of_point : ∀ (p : Fin 4) (q : Fin 8), ∃ t : Fin cfg0.N, win0_1.index t = ![p.val, q.val] :=
  (by decide +kernel : ∀ (p : Fin 4) (q : Fin 8), ∃ t : Fin grid0.N, win0_1.index t = ![p.val, q.val])

/-- WHAT A POINT WRITES BACK is its tile of the input array with every entry clipped. -/
theorem written_back (c : Dev nD) (t : Fin cfg0.N) :
    (dats m 0 c).flushed 1 t = ((cfg0.win 1).blk t).view.read (Elt F) (clipAll (s := S32x2097152) (V m c main_v0)) := by
  show (cfg0.win 1).cut (grid0.coords t) ((dats m 0 c).after 1 t) = _
  rw [after0_1]
  unfold out0_1
  rw [View.canon_unit_zero corner]
  simp only [View.ld_unit_zero (S := S8x262144) corner]
  rw [stored_eq]
  obtain ⟨e0, e1, -, -⟩ := same_tile t
  funext j
  show clip (V m c main_v0 (((cfg0.win 0).blk t).view.emb j)) = clip (V m c main_v0 (((cfg0.win 1).blk t).view.emb j))
  have h0 : ((cfg0.win 0).blk t).view.emb j = ((cfg0.win 1).blk t).view.emb j := by
    funext a; apply Fin.ext
    match a with
    | ⟨0, _⟩ => show win0_0.index t (0 : Fin 2) * 8 + 1 * (j 0).val = win0_1.index t (0 : Fin 2) * 8 + 1 * (j 0).val; omega
    | ⟨1, _⟩ => show win0_0.index t (1 : Fin 2) * 262144 + 1 * (j 1).val = win0_1.index t (1 : Fin 2) * 262144 + 1 * (j 1).val; omega
  rw [h0]

/-- An entry of the output array lies in a point's tile iff each coordinate lies in the tile's range. -/
theorem mem_tile (t : Fin cfg0.N) (i : S32x2097152.Idx) :
    i ∈ ((cfg0.win 1).blk t).view.set ↔ ∀ a : Fin 2, win0_1.index t a * S8x262144.size a ≤ (i a).val ∧ (i a).val < win0_1.index t a * S8x262144.size a + S8x262144.size a := by
  show i ∈ ((View.whole main_v1).slice (win0_1.rect t)).set ↔ _
  rw [View.set_slice_whole, Rect.mem_set_unit]
  exact Iff.rfl

/-- The tiles cover the array: entry (r, s) lies in the tile of the point whose tile coordinates are
    (r / 8, s / 262144). -/
theorem covered (i : S32x2097152.Idx) :
    ∃ t : Fin cfg0.N, (cfg0.win 1).flush t = true ∧ i ∈ ((cfg0.win 1).blk t).view.set := by
  have hi0 : (i 0).val < 32 := (i 0).isLt
  have hi1 : (i 1).val < 2097152 := (i 1).isLt
  obtain ⟨t, ht⟩ := tile_of_point ⟨(i 0).val / 8, by omega⟩ ⟨(i 1).val / 262144, by omega⟩
  have q0 : win0_1.index t (0 : Fin 2) = (i 0).val / 8 := congrFun ht 0
  have q1 : win0_1.index t (1 : Fin 2) = (i 1).val / 262144 := congrFun ht 1
  refine ⟨t, flush0_1 t, ?_⟩
  rw [mem_tile]
  intro a
  match a with
  | ⟨0, _⟩ => show win0_1.index t (0 : Fin 2) * 8 ≤ (i 0).val ∧ (i 0).val < win0_1.index t (0 : Fin 2) * 8 + 8; omega
  | ⟨1, _⟩ => show win0_1.index t (1 : Fin 2) * 262144 ≤ (i 1).val ∧ (i 1).val < win0_1.index t (1 : Fin 2) * 262144 + 262144; omega

/-- THE OUTPUT ARRAY after the run: every entry of the input array, as the region finds it, clipped. -/
theorem output_array (c : Dev nD) :
    (dats m 0 c).arrAt 1 cfg0.N = clipAll (s := S32x2097152) (V m c main_v0) :=
  (dats m 0 c).arrAt_eq_of_cover 1 _ (fun t _ => written_back m c t) covered

end Cert.KernelIdeal.Tiles

end
-- ==== Proof.KernelClip.lean ====
/-
  The whole kernel program, read as a value: its result is its argument with every entry clipped to [-1/2, 1/2].

  The program views its [16, 2, 2097152] argument as [32, 2097152] (a change of shape: the same entries in
  row-major order), runs the tiled clip on that view, and views the [32, 2097152] result as [16, 2, 2097152]
  again. The tiled clip leaves every entry of the view clipped; an entrywise map commutes with a change of shape,
  and the two changes of shape are inverse to each other, so the result is the argument with every entry clipped.
-/
import proofs.«404567_j54365696033603_3_alg».proof.Proof.TileClip
import Idealize.ShloMosaic.Lib.StableHlo.Run

noncomputable section

namespace Cert.KernelIdeal.Whole

open Cert.KernelIdeal Cert.KernelIdeal.Gen Cert.KernelIdeal.Tiles Cert.Clip
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- The array the region's input window reads is the argument viewed as [32, 2097152]. -/
theorem input_view (c : Dev nD) :
    (V m c main_v0 : S32x2097152.Idx → Elt F .f32)
      = shapeCast S32x2097152 (m ((c : Thread nD τ).loc main_arg0)) Facts₀.shapeCasts_S16x2x2097152_S32x2097152 := by
  show StableHlo.after hostOps0 (fun b => m (c, b)) (Proc.devRef .tc main_v0) = _
  after_results
  rfl

/-- The program's result: the region's output array viewed as [16, 2, 2097152], which is the argument with
    every entry clipped. -/
theorem result_array (c : Dev nD) :
    Pipeline.afterTail₀ cfgs (dats m) 0 (V0 m) [hostOps1] c main_v2
      = clipAll (s := S16x2x2097152) (m ((c : Thread nD τ).loc main_arg0)) := by
  have hw : Pipeline.withArrays (cfgs 0).spec c (V0 m c) (fun w => (dats m 0 c).arrAt w (cfgs 0).N) (Proc.devRef .tc main_v1)
      = clipAll (s := S32x2097152) (V m c main_v0) :=
    (Pipeline.withArrays_arr spec0 launch0.win.arr_inj c _ _ 1).trans (output_array m c)
  unfold Pipeline.afterTail₀
  show StableHlo.after hostOps1 _ (Proc.devRef .tc main_v2) = _
  after_results
  rw [hw, input_view]
  exact shapeCast_clipAll_shapeCast _ _ _

/-- THE RUN, read: every weakly fair execution of the kernel program terminates with its result at the argument
    clipped entry by entry, the argument unchanged. -/
theorem run : θ_run defs (onTc (τ := τ) (main (F := F))) ⟨m, fun _ => 0, ρ⟩ fun r => ∀ c : Dev nD,
      r.2.mem ((c.tc : Thread nD τ).loc main_v2) = clipAll (s := S16x2x2097152) (m ((c.tc : Thread nD τ).loc main_arg0))
      ∧ r.2.mem ((c.tc : Thread nD τ).loc main_arg0) = m ((c.tc : Thread nD τ).loc main_arg0) :=
  (θ_run defs _ _).mono (fun _ h c =>
    ⟨((h c).2 main_v2 (Pipeline.mem_restRefs_of main_v2 (by decide) (by decide))).trans (result_array m c),
     ((h c).2 main_arg0 (Pipeline.mem_restRefs_of main_arg0 (by decide) (by decide))).trans (W_main_arg0 m (dats m) c)⟩)
    (run_main m ρ)

end Cert.KernelIdeal.Whole

end
-- ==== Proof.lean ====
/-
  The kernel program and its reference compute the same function of their argument at the ideal instance:
  every entry `x` of the float array of shape [16, 2, 2097152] is clipped to `min (max x (-1/2)) (1/2)`.

  The reference does it in one piece: it broadcasts -1/2 and 1/2 to the array's shape and takes the entrywise
  maximum and then the entrywise minimum. The kernel program views the array as [32, 2097152], cuts the view into
  4 × 8 tiles of 8 × 262144 entries, clips each tile entrywise, writes it to the same place of a [32, 2097152]
  result, and views that result as [16, 2, 2097152] again. The bounds are the same two float words on both sides
  (-0.5 and 0.5), so nothing about them is ever computed, and no law of the extended reals is needed beyond the
  fact that an entrywise map commutes with re-indexing: the tiles cover the view, so the tiled clip clips every
  entry of the view; clipping commutes with the change of shape; and the two changes of shape cancel. The
  precondition (finite inputs) is not used.

  The three frames are the generated ones (the reference's is its generated run with the result dropped); the
  kernel's idealization rewrote nothing, so `preserves` is `True`.
-/
import proofs.«404567_j54365696033603_3_alg».proof.Defs
import proofs.«404567_j54365696033603_3_alg».proof.Proof.Gen.Kernel
import proofs.«404567_j54365696033603_3_alg».proof.Proof.Gen.Kernel.Skeleton
import proofs.«404567_j54365696033603_3_alg».proof.Proof.Gen.Kernel.Launch
import proofs.«404567_j54365696033603_3_alg».proof.Proof.Gen.Kernel.Points
import proofs.«404567_j54365696033603_3_alg».proof.Proof.Gen.Kernel.Frame
import proofs.«404567_j54365696033603_3_alg».proof.Proof.Gen.KernelIdeal
import proofs.«404567_j54365696033603_3_alg».proof.Proof.Gen.KernelIdeal.Skeleton
import proofs.«404567_j54365696033603_3_alg».proof.Proof.Gen.KernelIdeal.Launch
import proofs.«404567_j54365696033603_3_alg».proof.Proof.Gen.KernelIdeal.Points
import proofs.«404567_j54365696033603_3_alg».proof.Proof.Gen.KernelIdeal.Frame
import proofs.«404567_j54365696033603_3_alg».proof.Proof.Gen.ReferenceIdeal
import proofs.«404567_j54365696033603_3_alg».proof.Proof.Gen.ReferenceIdeal.Run
import proofs.«404567_j54365696033603_3_alg».proof.Proof.Gen.Pre_finite_inputs
import proofs.«404567_j54365696033603_3_alg».proof.Proof.ClipSpec
import proofs.«404567_j54365696033603_3_alg».proof.Proof.RefClip
import proofs.«404567_j54365696033603_3_alg».proof.Proof.TileClip
import proofs.«404567_j54365696033603_3_alg».proof.Proof.KernelClip
import Idealize.ShloMosaic.Adequacy
import Idealize.ShloMosaic.Init

noncomputable section

namespace Cert.Proof

open Idealize.ShloMosaic Idealize.SL.Sem Cert.Clip

/-- The word-level kernel program runs and leaves its argument as it was. -/
theorem frame_kernel : Cert.frame_Kernel := fun m ρ _ => Cert.Kernel.Gen.frame m ρ

/-- So does the idealized kernel program. -/
theorem frame_kernel_ideal : Cert.frame_KernelIdeal := fun m ρ _ => Cert.KernelIdeal.Gen.frame m ρ

/-- So does the reference: its run, with what it says about the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, both programs end with the argument clipped entry by entry: the kernel
    program by its tiles covering the reshaped view, the reference by its entrywise maximum and minimum
    against the two broadcast bounds. -/
theorem algebraic : Cert.algebraic_KernelIdeal_ReferenceIdeal := by
  intro m ρ m' ρ' _ hagree
  refine ⟨_, Cert.KernelIdeal.Whole.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.RefClip.term_eq, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, trivial, algebraic⟩

end Cert.Proof

end
